-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S1x8192x256 : Shape := ⟨3, ![1, 8192, 256]⟩
abbrev S1x8192 : Shape := ⟨2, ![1, 8192]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_
  bcast_S_S1x8192 : S_.BroadcastsInDim S1x8192 (![] : Fin 0 → Fin S1x8192.rank)
  reducesTo_S1x8192_S_d0_1 : S1x8192.ReducesTo [0, 1] S_

variable [Facts]

def fn {F : FTy → Type} [FloatOps F] (main_arg0 : FVec F S4096x256 .f32) (main_arg1 : FVec F S1x8192x256 .f32) (main_arg2 : FVec F S1x8192 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  main_v13
-- ==== Kernel.lean ====
abbrev S4096x256 : Shape := ⟨2, ![4096, 256]⟩
abbrev S1x8192x256 : Shape := ⟨3, ![1, 8192, 256]⟩
abbrev S1x8192 : Shape := ⟨2, ![1, 8192]⟩
abbrev S8192x256 : Shape := ⟨2, ![8192, 256]⟩
abbrev S4096x1 : Shape := ⟨2, ![4096, 1]⟩
abbrev S4096 : Shape := ⟨1, ![4096]⟩
abbrev S256x256 : Shape := ⟨2, ![256, 256]⟩
abbrev S256x1 : Shape := ⟨2, ![256, 1]⟩
abbrev S256x8192 : Shape := ⟨2, ![256, 8192]⟩
abbrev S256 : Shape := ⟨1, ![256]⟩

abbrev nBuf : Space → Nat
  | .hbm => 7
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S1x8192x256, .f32⟩
  | .hbm, ⟨2, _⟩ => ⟨S1x8192, .f32⟩
  | .hbm, ⟨3, _⟩ => ⟨S8192x256, .f32⟩
  | .hbm, ⟨4, _⟩ => ⟨S4096x256, .f32⟩
  | .hbm, ⟨5, _⟩ => ⟨S4096x1, .f32⟩
  | .hbm, ⟨6, _⟩ => ⟨S4096, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S1x8192, .f32⟩
  | .local _ .vmem, ⟨4, _⟩ => ⟨S256x256, .f32⟩
  | .local _ .vmem, ⟨5, _⟩ => ⟨S256x256, .f32⟩
  | .local _ .vmem, ⟨6, _⟩ => ⟨S256x1, .f32⟩
  | .local _ .vmem, ⟨7, _⟩ => ⟨S256x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_call0_v1_1 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x8192x256_S8192x256 : S1x8192x256.ShapeCasts S8192x256
  shapeCasts_S4096x1_S4096 : S4096x1.ShapeCasts S4096
  inb_S256x256_S256x256_0_0 : ∀ a, (![0, 0] : Fin 2 → Nat) a + S256x256.size a ≤ S256x256.size a
  h_S256x256 : 0 < S256x256.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S1x8192_S1x8192_0_0 : ∀ a, (![0, 0] : Fin 2 → Nat) a + S1x8192.size a ≤ S1x8192.size a
  h_S1x8192 : 0 < S1x8192.numel
  broadcasts_S1x8192_S256x8192 : S1x8192.Broadcasts S256x8192
  reduces_S256x8192_S256 : S256x8192.Reduces [1] S256
  shapeCasts_S256_S256x1 : S256.ShapeCasts S256x1
  broadcasts_S256x1_S256x8192 : S256x1.Broadcasts S256x8192
  inb_S256x1_S256x1_0_0 : ∀ a, (![0, 0] : Fin 2 → Nat) a + S256x1.size a ≤ S256x1.size a
  h_S256x1 : 0 < S256x1.numel
  broadcasts_S256x1_S256x256 : S256x1.Broadcasts S256x256
  dot_S256x256_S8192x256_S256x8192_1_1_0_0_n_n_wf : DotDims.WF S256x256 S8192x256 S256x8192 [1] [1] [0] [0] [] []
  dot_S256x8192_S8192x256_S256x256_1_0_0_1_n_n_wf : DotDims.WF S256x8192 S8192x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x256.size a
  hwx0_3 : ∀ i : grid0.Coords, EltTy.bits .f32 = 32 ∨ (Rect.block (s := S4096x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1_1) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S1x8192x256 : Shape := ⟨3, ![1, 8192, 256]⟩
abbrev S1x8192 : Shape := ⟨2, ![1, 8192]⟩
abbrev S8192x256 : Shape := ⟨2, ![8192, 256]⟩
abbrev S256x8192 : Shape := ⟨2, ![256, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1x8192x256, .f32⟩
  | .hbm, ⟨2, _⟩ => ⟨S1x8192, .f32⟩
  | .hbm, ⟨3, _⟩ => ⟨S8192x256, .f32⟩
  | .hbm, ⟨4, _⟩ => ⟨S256x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x8192, .f32⟩
  | .hbm, ⟨30, _⟩ => ⟨S4096x8192, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x8192, .f32⟩
  | .hbm, ⟨35, _⟩ => ⟨S4096x8192, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1, .f32⟩
  | .hbm, ⟨42, _⟩ => ⟨S4096x8192, .f32⟩
  | .hbm, ⟨43, _⟩ => ⟨S4096x8192, .f32⟩
  | .hbm, ⟨44, _⟩ => ⟨S4096x8192, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x8192, .f32⟩
  | .hbm, ⟨49, _⟩ => ⟨S4096x8192, .f32⟩
  | .hbm, ⟨50, _⟩ => ⟨S4096x8192, .f32⟩
  | .hbm, ⟨51, _⟩ => ⟨S_, .f32⟩
  | .hbm, ⟨52, _⟩ => ⟨S4096, .f32⟩
  | .hbm, ⟨53, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  shapeCasts_S1x8192x256_S8192x256 : S1x8192x256.ShapeCasts S8192x256
  transposes_S8192x256_S256x8192_1_0 : S8192x256.Transposes [1, 0] S256x8192
  bcast_S1x8192_S4096x8192_0_1 : S1x8192.BroadcastsInDim S4096x8192 (![0, 1] : Fin 2 → Fin S4096x8192.rank)
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  bcast_S_S4096 : S_.BroadcastsInDim S4096 (![] : Fin 0 → Fin S4096.rank)
  dot_S4096x256_S256x8192_S4096x8192_1_0_0_1_n_n_wf : DotDims.WF S4096x256 S256x8192 S4096x8192 [1] [0] [0] [1] [] []
  dot_S4096x8192_S8192x256_S4096x256_1_0_0_1_n_n_wf : DotDims.WF S4096x8192 S8192x256 S4096x256 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf

class Facts : Prop extends Facts₀ where

variable [Facts]
-- ==== Proof.RowModel.lean ====
/-
  The row model: what one row of the soft-selection computes, written once over the extended reals.

  For a row of X (256 entries), the candidate table y (8192 x 256) and the intercept b (8192 entries):
    score k   = (sum over d of x d * y k d) + b k
    temp      = min tMax (max tMin (tMin / max (rowMax - rowMin) floorSpan))       (the adaptive temperature)
  The kernel's side weighs candidate k by  exp (score k * temp - rowMax * temp)  and divides the two weighted sums
  by the weights' total AFTER summing; the reference's side shifts  score k * temp  by its maximum twice (the second
  shift is by zero), exponentiates, normalises each weight by the total and only then sums.
  The two agree whenever the scores are real numbers: the temperature is then a positive real, so the maximum of
  score * temp is rowMax * temp, the second shift subtracts 0, and a quotient by a positive real total commutes
  with the finite sums.
-/
import Idealize.ShloMosaic.PureOps.Ideal
import Idealize.ShloMosaic.PureOps.Ideal.Laws

noncomputable section

namespace Cert.RowModel

open Idealize.ShloMosaic

/-- The float words the two programs share, as extended reals: minus and plus infinity, zero, one,
    the span's floor 1e-3, and the temperature's bounds 50 and 5000. -/
abbrev negInf : EReal := Ideal.ofBits .f32 0xFF800000#32
abbrev posInf : EReal := Ideal.ofBits .f32 0x7F800000#32
abbrev zero : EReal := Ideal.ofBits .f32 0x00000000#32
abbrev one : EReal := Ideal.ofBits .f32 0x3F800000#32
abbrev floorSpan : EReal := Ideal.ofBits .f32 0x3A83126F#32
abbrev tMin : EReal := Ideal.ofBits .f32 0x42480000#32
abbrev tMax : EReal := Ideal.ofBits .f32 0x459C4000#32

/-- The score of candidate `k` for one row. -/
def score (xr : Fin 256 → EReal) (y : Fin 8192 → Fin 256 → EReal) (b : Fin 8192 → EReal) (k : Fin 8192) : EReal :=
  (∑ d : Fin 256, xr d * y k d) + b k

/-- A row's largest and smallest score, as folds from the infinities. -/
def rowMax (s : Fin 8192 → EReal) : EReal := (Finset.univ : Finset (Fin 8192)).fold max negInf s
def rowMin (s : Fin 8192 → EReal) : EReal := (Finset.univ : Finset (Fin 8192)).fold min posInf s

/-- The adaptive temperature of a row: 50 over the clamped span, clipped to [50, 5000]. -/
def temp (s : Fin 8192 → EReal) : EReal :=
  min tMax (max tMin (Ideal.div tMin (max (rowMax s - rowMin s) floorSpan)))

/-! ### The kernel's side -/

/-- The unnormalised weight of candidate `k`. -/
def kerW (s : Fin 8192 → EReal) (k : Fin 8192) : EReal := Ideal.exp (s k * temp s - rowMax s * temp s)
/-- The reciprocal of the weights' total. -/
def kerInv (s : Fin 8192 → EReal) : EReal := Ideal.div one (∑ k : Fin 8192, kerW s k)
/-- The soft maximum: the weighted sum of the scores, then the reciprocal. -/
def kerV (s : Fin 8192 → EReal) : EReal := (∑ k : Fin 8192, kerW s k * s k) * kerInv s
/-- The soft choice, coordinate `j`: the weighted sum of the candidates, then the reciprocal. -/
def kerChoice (s : Fin 8192 → EReal) (y : Fin 8192 → Fin 256 → EReal) (j : Fin 256) : EReal :=
  (∑ k : Fin 8192, kerW s k * y k j) * kerInv s

/-! ### The reference's side -/

def refZ (s : Fin 8192 → EReal) (k : Fin 8192) : EReal := s k * temp s
def refZ1 (s : Fin 8192 → EReal) (k : Fin 8192) : EReal := refZ s k - rowMax (refZ s)
def refZ2 (s : Fin 8192 → EReal) (k : Fin 8192) : EReal := refZ1 s k - max negInf (rowMax (refZ1 s))
/-- The normalised weight of candidate `k`. -/
def refW (s : Fin 8192 → EReal) (k : Fin 8192) : EReal :=
  Ideal.div (Ideal.exp (refZ2 s k)) (zero + ∑ k' : Fin 8192, Ideal.exp (refZ2 s k'))
def refV (s : Fin 8192 → EReal) : EReal := zero + ∑ k : Fin 8192, refW s k * s k
def refChoice (s : Fin 8192 → EReal) (y : Fin 8192 → Fin 256 → EReal) (j : Fin 256) : EReal :=
  ∑ k : Fin 8192, refW s k * y k j

end Cert.RowModel

end
-- ==== Proof.KernelRows.lean ====
/-
  The kernel's body, read at an index of its two stored blocks.

  One grid point holds 256 rows of X. For the row p of the block, the body forms the 8192 scores of that row against
  the whole candidate table and the intercept, the row's maximum and minimum, the adaptive temperature, the
  unnormalised weights, and stores (sum of weight * score) * (1 / total) in the narrow block and
  (sum of weight * candidate coordinate) * (1 / total) in the wide block. This module shows that the stored values
  are the row model's `kerV` and `kerChoice` of that row.
-/
import proofs.«145452_g88089779241353_cont_9to1c4b_404_3_alg».proof.Proof.Gen.KernelIdeal.Skeleton
import proofs.«145452_g88089779241353_cont_9to1c4b_404_3_alg».proof.Proof.RowModel
import Idealize.ShloMosaic.Lib.ValueIdx
import Idealize.ShloMosaic.Lib.ValueLayout
import Idealize.ShloMosaic.Lib.Pipeline.Value
import Idealize.ShloMosaic.PureOps.Ideal.Laws

noncomputable section

namespace Cert.KernelRows

open Idealize.ShloMosaic Idealize.ShloMosaic.ValueIdx Cert.KernelIdeal Cert.RowModel
open Cert.KernelIdeal.Facts₀

/-! ## Layout steps at explicit coordinates -/

/-- A length-256 vector viewed as a 256 x 1 column holds, in row p, the vector's entry p. -/
theorem column_of_vector (v : FVec Ideal S256 .f32) (p : Fin 256) :
    shapeCast S256x1 v shapeCasts_S256_S256x1 (ix2 p (0 : Fin 1)) = v (ix1 p) :=
  shapeCast_apply v _ _ _ (by
    rw [Shape.rowMajor_val_one, Shape.rowMajor_val_two]
    show p.val = p.val * 1 + 0
    omega)

/-- A 256 x 1 column spread over 8192 lanes holds, at (p, k), the column's row p. -/
theorem spread_column_wide (v : FVec Ideal S256x1 .f32) (p : Fin 256) (k : Fin 8192) :
    broadcastTo S256x8192 v broadcasts_S256x1_S256x8192 (ix2 p k) = v (ix2 p (0 : Fin 1)) :=
  broadcastTo_apply v _ _ _ (fun a => by
    match a with
    | ⟨0, _⟩ => rfl
    | ⟨1, _⟩ => rfl)

/-- A 256 x 1 column spread over 256 lanes holds, at (p, q), the column's row p. -/
theorem spread_column (v : FVec Ideal S256x1 .f32) (p q : Fin 256) :
    broadcastTo S256x256 v broadcasts_S256x1_S256x256 (ix2 p q) = v (ix2 p (0 : Fin 1)) :=
  broadcastTo_apply v _ _ _ (fun a => by
    match a with
    | ⟨0, _⟩ => rfl
    | ⟨1, _⟩ => rfl)

/-- The 1 x 8192 intercept row spread over 256 rows holds, at (p, k), the row's entry k. -/
theorem spread_row (v : FVec Ideal S1x8192 .f32) (p : Fin 256) (k : Fin 8192) :
    broadcastTo S256x8192 v broadcasts_S1x8192_S256x8192 (ix2 p k) = v (ix2 (0 : Fin 1) k) :=
  broadcastTo_apply v _ _ _ (fun a => by
    match a with
    | ⟨0, _⟩ => rfl
    | ⟨1, _⟩ => rfl)

/-! ## The two matrix products as sums -/

theorem lhs_scores_0 (i : S256x8192.Idx) (q : dot_S256x256_S8192x256_S256x8192_1_1_0_0_n_n.contr.Idx) :
    (dot_S256x256_S8192x256_S256x8192_1_1_0_0_n_n.lhsIdx i q 0).val = (i 0).val := by
  unfold DotDims.lhsIdx
  rw [dif_neg (show ¬(0 : Fin S256x256.rank) ∈ dot_S256x256_S8192x256_S256x8192_1_1_0_0_n_n.lhsBatch by decide), dif_pos (show (0 : Fin S256x256.rank) ∈ dot_S256x256_S8192x256_S256x8192_1_1_0_0_n_n.lhsNonContracting by decide)]
  rfl
theorem lhs_scores_1 (i : S256x8192.Idx) (q : dot_S256x256_S8192x256_S256x8192_1_1_0_0_n_n.contr.Idx) :
    (dot_S256x256_S8192x256_S256x8192_1_1_0_0_n_n.lhsIdx i q 1).val = (q ⟨0, by decide⟩).val :=
  dot_S256x256_S8192x256_S256x8192_1_1_0_0_n_n.lhsIdx_val_of_single rfl i q
theorem rhs_scores_0 (i : S256x8192.Idx) (q : dot_S256x256_S8192x256_S256x8192_1_1_0_0_n_n.contr.Idx) :
    (dot_S256x256_S8192x256_S256x8192_1_1_0_0_n_n.rhsIdx i q 0).val = (i 1).val := by
  unfold DotDims.rhsIdx
  rw [dif_neg (show ¬(0 : Fin S8192x256.rank) ∈ dot_S256x256_S8192x256_S256x8192_1_1_0_0_n_n.rhsBatch by decide), dif_pos (show (0 : Fin S8192x256.rank) ∈ dot_S256x256_S8192x256_S256x8192_1_1_0_0_n_n.rhsNonContracting by decide)]
  rfl
theorem rhs_scores_1 (i : S256x8192.Idx) (q : dot_S256x256_S8192x256_S256x8192_1_1_0_0_n_n.contr.Idx) :
    (dot_S256x256_S8192x256_S256x8192_1_1_0_0_n_n.rhsIdx i q 1).val = (q ⟨0, by decide⟩).val :=
  dot_S256x256_S8192x256_S256x8192_1_1_0_0_n_n.rhsIdx_val_of_single rfl i q

/-- The first product contracts the feature axis of both operands: entry (p, k) is the inner product of row p of
    the X block with row k of the candidate table. -/
theorem scores_product (lhs : FVec Ideal S256x256 .f32) (rhs : FVec Ideal S8192x256 .f32) (p : Fin 256) (k : Fin 8192) :
    matmul dot_S256x256_S8192x256_S256x8192_1_1_0_0_n_n none lhs rhs (constant (F := Ideal) S256x8192 .f32 0x00000000#32) (ix2 p k)
      = ∑ d : Fin 256, lhs (ix2 p d) * rhs (ix2 k d) := by
  simp only [matmul]
  rw [Ideal.matmul_constant_zero_apply, ← Equiv.sum_comp (ValueIdx.contrEquiv1 dot_S256x256_S8192x256_S256x8192_1_1_0_0_n_n 256 rfl rfl).symm]
  refine Finset.sum_congr rfl fun d _ => ?_
  have hk := ValueIdx.contrEquiv1_symm_val dot_S256x256_S8192x256_S256x8192_1_1_0_0_n_n 256 rfl rfl d
  have el : dot_S256x256_S8192x256_S256x8192_1_1_0_0_n_n.lhsIdx (ix2 p k) ((ValueIdx.contrEquiv1 dot_S256x256_S8192x256_S256x8192_1_1_0_0_n_n 256 rfl rfl).symm d) = ix2 p d := funext fun a => Fin.ext (by
    match a with
    | ⟨0, _⟩ => exact lhs_scores_0 _ _
    | ⟨1, _⟩ => exact (lhs_scores_1 _ _).trans hk)
  have er : dot_S256x256_S8192x256_S256x8192_1_1_0_0_n_n.rhsIdx (ix2 p k) ((ValueIdx.contrEquiv1 dot_S256x256_S8192x256_S256x8192_1_1_0_0_n_n 256 rfl rfl).symm d) = ix2 k d := funext fun a => Fin.ext (by
    match a with
    | ⟨0, _⟩ => exact rhs_scores_0 _ _
    | ⟨1, _⟩ => exact (rhs_scores_1 _ _).trans hk)
  rw [el, er]

theorem lhs_mix_0 (i : S256x256.Idx) (q : dot_S256x8192_S8192x256_S256x256_1_0_0_1_n_n.contr.Idx) :
    (dot_S256x8192_S8192x256_S256x256_1_0_0_1_n_n.lhsIdx i q 0).val = (i 0).val := by
  unfold DotDims.lhsIdx
  rw [dif_neg (show ¬(0 : Fin S256x8192.rank) ∈ dot_S256x8192_S8192x256_S256x256_1_0_0_1_n_n.lhsBatch by decide), dif_pos (show (0 : Fin S256x8192.rank) ∈ dot_S256x8192_S8192x256_S256x256_1_0_0_1_n_n.lhsNonContracting by decide)]
  rfl
theorem lhs_mix_1 (i : S256x256.Idx) (q : dot_S256x8192_S8192x256_S256x256_1_0_0_1_n_n.contr.Idx) :
    (dot_S256x8192_S8192x256_S256x256_1_0_0_1_n_n.lhsIdx i q 1).val = (q ⟨0, by decide⟩).val :=
  dot_S256x8192_S8192x256_S256x256_1_0_0_1_n_n.lhsIdx_val_of_single rfl i q
theorem rhs_mix_0 (i : S256x256.Idx) (q : dot_S256x8192_S8192x256_S256x256_1_0_0_1_n_n.contr.Idx) :
    (dot_S256x8192_S8192x256_S256x256_1_0_0_1_n_n.rhsIdx i q 0).val = (q ⟨0, by decide⟩).val :=
  dot_S256x8192_S8192x256_S256x256_1_0_0_1_n_n.rhsIdx_val_of_single rfl i q
theorem rhs_mix_1 (i : S256x256.Idx) (q : dot_S256x8192_S8192x256_S256x256_1_0_0_1_n_n.contr.Idx) :
    (dot_S256x8192_S8192x256_S256x256_1_0_0_1_n_n.rhsIdx i q 1).val = (i 1).val := by
  unfold DotDims.rhsIdx
  rw [dif_neg (show ¬(1 : Fin S8192x256.rank) ∈ dot_S256x8192_S8192x256_S256x256_1_0_0_1_n_n.rhsBatch by decide), dif_pos (show (1 : Fin S8192x256.rank) ∈ dot_S256x8192_S8192x256_S256x256_1_0_0_1_n_n.rhsNonContracting by decide)]
  rfl

/-- The second product contracts the candidate axis: entry (p, j) is the sum over candidates k of the weight
    (p, k) times coordinate j of candidate k. -/
theorem mix_product (lhs : FVec Ideal S256x8192 .f32) (rhs : FVec Ideal S8192x256 .f32) (p j : Fin 256) :
    matmul dot_S256x8192_S8192x256_S256x256_1_0_0_1_n_n none lhs rhs (constant (F := Ideal) S256x256 .f32 0x00000000#32) (ix2 p j)
      = ∑ k : Fin 8192, lhs (ix2 p k) * rhs (ix2 k j) := by
  simp only [matmul]
  rw [Ideal.matmul_constant_zero_apply, ← Equiv.sum_comp (ValueIdx.contrEquiv1 dot_S256x8192_S8192x256_S256x256_1_0_0_1_n_n 8192 rfl rfl).symm]
  refine Finset.sum_congr rfl fun k _ => ?_
  have hk := ValueIdx.contrEquiv1_symm_val dot_S256x8192_S8192x256_S256x256_1_0_0_1_n_n 8192 rfl rfl k
  have el : dot_S256x8192_S8192x256_S256x256_1_0_0_1_n_n.lhsIdx (ix2 p j) ((ValueIdx.contrEquiv1 dot_S256x8192_S8192x256_S256x256_1_0_0_1_n_n 8192 rfl rfl).symm k) = ix2 p k := funext fun a => Fin.ext (by
    match a with
    | ⟨0, _⟩ => exact lhs_mix_0 _ _
    | ⟨1, _⟩ => exact (lhs_mix_1 _ _).trans hk)
  have er : dot_S256x8192_S8192x256_S256x256_1_0_0_1_n_n.rhsIdx (ix2 p j) ((ValueIdx.contrEquiv1 dot_S256x8192_S8192x256_S256x256_1_0_0_1_n_n 8192 rfl rfl).symm k) = ix2 k j := funext fun a => Fin.ext (by
    match a with
    | ⟨0, _⟩ => exact (rhs_mix_0 _ _).trans hk
    | ⟨1, _⟩ => exact rhs_mix_1 _ _)
  rw [el, er]

/-! ## The row reductions -/

/-- Reducing the lane axis at row p reads the source along (p, k), k the lane. -/
theorem lift_lane (p : Fin 256) (k : Fin 8192) : reduces_S256x8192_S256.lift (ix1 p) k = ix2 p k :=
  funext fun a => Fin.ext (by
    match a with
    | ⟨0, _⟩ => rfl
    | ⟨1, _⟩ => rfl)

/-- The lane maximum of row p, folded from minus infinity. -/
theorem lane_max (v : FVec Ideal S256x8192 .f32) (hφ : FKind.Formats .f32)
    (hacc : (0xFF800000#32 : BitVec 32) = FKind.maximumf.neutral .f32 hφ) (p : Fin 256) :
    multiReduction .maximumf [1] S256 v 0xFF800000#32 reduces_S256x8192_S256 hφ hacc (ix1 p)
      = rowMax (fun k => v (ix2 p k)) :=
  (Ideal.multiReduction_maximumf_single v 0xFF800000#32 reduces_S256x8192_S256 hφ hacc (ix1 p)).trans
    (congrArg (fun f : Fin 8192 → EReal => (Finset.univ : Finset (Fin 8192)).fold max negInf f)
      (funext fun k => congrArg v (lift_lane p k)))

/-- The lane minimum of row p, folded from plus infinity. -/
theorem lane_min (v : FVec Ideal S256x8192 .f32) (hφ : FKind.Formats .f32)
    (hacc : (0x7F800000#32 : BitVec 32) = FKind.minimumf.neutral .f32 hφ) (p : Fin 256) :
    multiReduction .minimumf [1] S256 v 0x7F800000#32 reduces_S256x8192_S256 hφ hacc (ix1 p)
      = rowMin (fun k => v (ix2 p k)) := by
  rw [multiReduction_minimumf_eq_fold]
  exact (reduces_S256x8192_S256.fold_filter_drop_single _ _ v (ix1 p)).trans
    (congrArg (fun f : Fin 8192 → EReal => (Finset.univ : Finset (Fin 8192)).fold min posInf f)
      (funext fun k => congrArg v (lift_lane p k)))

/-- The lane sum of row p. -/
theorem lane_sum (v : FVec Ideal S256x8192 .f32) (hφ : FKind.Formats .f32)
    (hacc : (0x00000000#32 : BitVec 32) = FKind.add.neutral .f32 hφ) (p : Fin 256) :
    multiReduction .add [1] S256 v 0x00000000#32 reduces_S256x8192_S256 hφ hacc (ix1 p)
      = ∑ k : Fin 8192, v (ix2 p k) :=
  (Ideal.multiReduction_add_single v 0x00000000#32 reduces_S256x8192_S256 hφ hacc (ix1 p)).trans
    (Finset.sum_congr rfl fun k _ => congrArg v (lift_lane p k))

/-- The lane reductions as the body spells them (their side proofs are equations between equal words). -/
theorem lane_max' (v : FVec Ideal S256x8192 .f32) (hacc : (0xFF800000#32 : BitVec 32) = 0xFF800000#32) (p : Fin 256) :
    multiReduction .maximumf [1] S256 v 0xFF800000#32 reduces_S256x8192_S256 (.inl rfl) hacc (ix1 p)
      = rowMax (fun k => v (ix2 p k)) := lane_max v _ _ p
theorem lane_min' (v : FVec Ideal S256x8192 .f32) (hacc : (0x7F800000#32 : BitVec 32) = 0x7F800000#32) (p : Fin 256) :
    multiReduction .minimumf [1] S256 v 0x7F800000#32 reduces_S256x8192_S256 (.inl rfl) hacc (ix1 p)
      = rowMin (fun k => v (ix2 p k)) := lane_min v _ _ p
theorem lane_sum' (v : FVec Ideal S256x8192 .f32) (hacc : (0x00000000#32 : BitVec 32) = 0x00000000#32) (p : Fin 256) :
    multiReduction .add [1] S256 v 0x00000000#32 reduces_S256x8192_S256 (.inl rfl) hacc (ix1 p)
      = ∑ k : Fin 8192, v (ix2 p k) := lane_sum v _ _ p

/-! ## The body's columns as functions of the score matrix -/

/-- The exponential of a vector, entry by entry. -/
theorem exp_at {s : Shape} {φ : FTy} (a : FVec Ideal s φ) (i : s.Idx) : exp a i = Ideal.exp (a i) := rfl

section Columns
variable {F : FTy → Type} [FloatOps F]

/-- The column of row maxima of a 256 x 8192 matrix. -/
def maxCol (S : FVec F S256x8192 .f32) : FVec F S256x1 .f32 :=
  shapeCast S256x1 (multiReduction .maximumf [1] S256 S 0xFF800000#32 reduces_S256x8192_S256 (.inl rfl) rfl) shapeCasts_S256_S256x1
/-- The column of row minima. -/
def minCol (S : FVec F S256x8192 .f32) : FVec F S256x1 .f32 :=
  shapeCast S256x1 (multiReduction .minimumf [1] S256 S 0x7F800000#32 reduces_S256x8192_S256 (.inl rfl) rfl) shapeCasts_S256_S256x1
/-- The column of adaptive temperatures: 50 over the clamped span, clipped to [50, 5000]. -/
def tempCol (S : FVec F S256x8192 .f32) : FVec F S256x1 .f32 :=
  minimumf (broadcast S256x1 (Scalar.ofBits (F := F) .f32 0x459C4000#32))
    (maximumf (broadcast S256x1 (Scalar.ofBits (F := F) .f32 0x42480000#32))
      (divf (broadcast S256x1 (Scalar.ofBits (F := F) .f32 0x42480000#32))
        (maximumf (subf (maxCol S) (minCol S)) (broadcast S256x1 (Scalar.ofBits (F := F) .f32 0x3A83126F#32)))))
/-- The unnormalised weights. -/
def weights (S : FVec F S256x8192 .f32) : FVec F S256x8192 .f32 :=
  exp (subf (mulf S (broadcastTo S256x8192 (tempCol S) broadcasts_S256x1_S256x8192))
    (broadcastTo S256x8192 (mulf (maxCol S) (tempCol S)) broadcasts_S256x1_S256x8192))
/-- The column of reciprocals of the weights' row totals. -/
def invCol (W : FVec F S256x8192 .f32) : FVec F S256x1 .f32 :=
  divf (broadcast S256x1 (Scalar.ofBits (F := F) .f32 0x3F800000#32))
    (shapeCast S256x1 (multiReduction .add [1] S256 W 0x00000000#32 reduces_S256x8192_S256 (.inl rfl) rfl) shapeCasts_S256_S256x1)
/-- The soft maximum column: the weighted row sums of the scores, times the reciprocal. -/
def softMaxCol (W S : FVec F S256x8192 .f32) : FVec F S256x1 .f32 :=
  mulf (shapeCast S256x1 (multiReduction .add [1] S256 (mulf W S) 0x00000000#32 reduces_S256x8192_S256 (.inl rfl) rfl) shapeCasts_S256_S256x1)
    (invCol W)
/-- The soft choice block: the weights times the candidate table, each row times its reciprocal. -/
def softChoiceBlock (W : FVec F S256x8192 .f32) (Y : FVec F S8192x256 .f32) : FVec F S256x256 .f32 :=
  mulf (matmul dot_S256x8192_S8192x256_S256x256_1_0_0_1_n_n none W Y (constant (F := F) S256x256 .f32 0x00000000#32))
    (broadcastTo S256x256 (invCol W) broadcasts_S256x1_S256x256)

end Columns

theorem maxCol_read (S : FVec Ideal S256x8192 .f32) (p : Fin 256) :
    maxCol S (ix2 p (0 : Fin 1)) = rowMax (fun k => S (ix2 p k)) :=
  (column_of_vector _ p).trans (lane_max S _ _ p)

theorem minCol_read (S : FVec Ideal S256x8192 .f32) (p : Fin 256) :
    minCol S (ix2 p (0 : Fin 1)) = rowMin (fun k => S (ix2 p k)) :=
  (column_of_vector _ p).trans (lane_min S _ _ p)

theorem tempCol_read (S : FVec Ideal S256x8192 .f32) (p : Fin 256) :
    tempCol S (ix2 p (0 : Fin 1)) = temp (fun k => S (ix2 p k)) := by
  unfold tempCol
  rw [minimumf_apply, maximumf_apply, divf_apply, maximumf_apply, subf_apply, maxCol_read, minCol_read,
    broadcast_apply, broadcast_apply, broadcast_apply, Ideal.ofBits_def, Ideal.ofBits_def, Ideal.ofBits_def]
  rfl

theorem weights_read (S : FVec Ideal S256x8192 .f32) (p : Fin 256) (k : Fin 8192) :
    weights S (ix2 p k) = kerW (fun k => S (ix2 p k)) k := by
  unfold weights
  rw [exp_at, subf_apply, mulf_apply, spread_column_wide, spread_column_wide, mulf_apply, tempCol_read, maxCol_read]
  rfl

theorem invCol_read (W : FVec Ideal S256x8192 .f32) (p : Fin 256) :
    invCol W (ix2 p (0 : Fin 1)) = Ideal.div one (∑ k : Fin 8192, W (ix2 p k)) := by
  unfold invCol
  rw [divf_apply, broadcast_apply, column_of_vector, lane_sum', Ideal.ofBits_def]

theorem softMaxCol_read (W S : FVec Ideal S256x8192 .f32) (p : Fin 256) :
    softMaxCol W S (ix2 p (0 : Fin 1)) = (∑ k : Fin 8192, W (ix2 p k) * S (ix2 p k)) * invCol W (ix2 p (0 : Fin 1)) := by
  unfold softMaxCol
  rw [mulf_apply, column_of_vector, lane_sum']
  exact congrArg (· * invCol W (ix2 p (0 : Fin 1))) (Finset.sum_congr rfl fun k _ => mulf_apply W S (ix2 p k))

theorem softChoiceBlock_read (W : FVec Ideal S256x8192 .f32) (Y : FVec Ideal S8192x256 .f32) (p j : Fin 256) :
    softChoiceBlock W Y (ix2 p j) = (∑ k : Fin 8192, W (ix2 p k) * Y (ix2 k j)) * invCol W (ix2 p (0 : Fin 1)) := by
  unfold softChoiceBlock
  rw [mulf_apply, mix_product, spread_column]

/-! ## The body's values at an index -/

/-! The body's values are the column functions of the score matrix, whatever the float values are: the body's
    text is those functions' text. -/
section AnyValues
variable {F : FTy → Type} [FloatOps F]
variable (x0 : Vec F S256x256 .f32) (x1 : Vec F S8192x256 .f32) (x2 : Vec F S1x8192 .f32)
theorem weights_eq_any : Gen.k0_pay3 x0 x1 x2 = weights (Gen.k0_pay2 x0 x1 x2) := rfl
theorem soft_max_eq_any : Gen.k0_pay5 x0 x1 x2 = softMaxCol (Gen.k0_pay3 x0 x1 x2) (Gen.k0_pay2 x0 x1 x2) := rfl
theorem soft_choice_eq_any : Gen.k0_pay6 x0 x1 x2 = softChoiceBlock (Gen.k0_pay3 x0 x1 x2) (Gen.k0_pay1 x1) := rfl
end AnyValues

section Body

variable (x0 : Vec Ideal S256x256 .f32) (x1 : Vec Ideal S8192x256 .f32) (x2 : Vec Ideal S1x8192 .f32)

/-- Row p of the X block, the candidate table and the intercept, as the row model takes them. -/
abbrev blockRow (p : Fin 256) : Fin 256 → EReal := fun d => x0 (ix2 p d)
abbrev table : Fin 8192 → Fin 256 → EReal := fun k d => x1 (ix2 k d)
abbrev intercept : Fin 8192 → EReal := fun k => x2 (ix2 (0 : Fin 1) k)
/-- The scores of row p of the block. -/
abbrev rowScores (p : Fin 256) : Fin 8192 → EReal := score (blockRow x0 p) (table x1) (intercept x2)

/-- The candidate table passes through a cast to its own shape unchanged. -/
theorem table_cast : Gen.k0_pay1 (F := Ideal) x1 = x1 := shapeCast_self x1 _

/-- Entry (p, k) of the score matrix is the row model's score of candidate k for row p. -/
theorem scores_read (p : Fin 256) (k : Fin 8192) :
    Gen.k0_pay2 (F := Ideal) x0 x1 x2 (ix2 p k) = rowScores x0 x1 x2 p k := by
  show matmul dot_S256x256_S8192x256_S256x8192_1_1_0_0_n_n none x0 (Gen.k0_pay1 (F := Ideal) x1) (constant (F := Ideal) S256x8192 .f32 0x00000000#32) (ix2 p k)
        + broadcastTo S256x8192 x2 broadcasts_S1x8192_S256x8192 (ix2 p k) = _
  rw [scores_product, spread_row, table_cast]
  rfl

theorem scores_row (p : Fin 256) : (fun k => Gen.k0_pay2 (F := Ideal) x0 x1 x2 (ix2 p k)) = rowScores x0 x1 x2 p :=
  funext (scores_read x0 x1 x2 p)

/-- The body's values are the column functions of the score matrix (at the ideal values). -/
theorem weights_eq : Gen.k0_pay3 (F := Ideal) x0 x1 x2 = weights (Gen.k0_pay2 (F := Ideal) x0 x1 x2) :=
  weights_eq_any x0 x1 x2
theorem soft_max_eq : Gen.k0_pay5 (F := Ideal) x0 x1 x2
    = softMaxCol (Gen.k0_pay3 (F := Ideal) x0 x1 x2) (Gen.k0_pay2 (F := Ideal) x0 x1 x2) :=
  soft_max_eq_any x0 x1 x2
theorem soft_choice_eq : Gen.k0_pay6 (F := Ideal) x0 x1 x2
    = softChoiceBlock (Gen.k0_pay3 (F := Ideal) x0 x1 x2) (Gen.k0_pay1 (F := Ideal) x1) :=
  soft_choice_eq_any x0 x1 x2

/-- The weight of candidate k in row p. -/
theorem weight_read (p : Fin 256) (k : Fin 8192) :
    Gen.k0_pay3 (F := Ideal) x0 x1 x2 (ix2 p k) = kerW (rowScores x0 x1 x2 p) k := by
  rw [weights_eq, weights_read, scores_row]

theorem weight_row (p : Fin 256) : (fun k => Gen.k0_pay3 (F := Ideal) x0 x1 x2 (ix2 p k)) = kerW (rowScores x0 x1 x2 p) :=
  funext (weight_read x0 x1 x2 p)

/-- The reciprocal of row p's total weight. -/
theorem inv_read (p : Fin 256) :
    invCol (Gen.k0_pay3 (F := Ideal) x0 x1 x2) (ix2 p (0 : Fin 1)) = kerInv (rowScores x0 x1 x2 p) := by
  rw [invCol_read, weight_row]
  rfl

/-- The narrow block holds, in row p, the row model's soft maximum of that row's scores. -/
theorem soft_max_block (p : Fin 256) :
    Gen.k0_pay5 (F := Ideal) x0 x1 x2 (ix2 p (0 : Fin 1)) = kerV (rowScores x0 x1 x2 p) := by
  rw [soft_max_eq, softMaxCol_read, inv_read]
  refine congrArg (· * kerInv (rowScores x0 x1 x2 p)) (Finset.sum_congr rfl fun k _ => ?_)
  rw [weight_read, scores_read]

/-- The wide block holds, at (p, j), coordinate j of the row model's soft choice for row p. -/
theorem soft_choice_block (p j : Fin 256) :
    Gen.k0_pay6 (F := Ideal) x0 x1 x2 (ix2 p j) = kerChoice (rowScores x0 x1 x2 p) (table x1) j := by
  rw [soft_choice_eq, softChoiceBlock_read, inv_read, table_cast]
  refine congrArg (· * kerInv (rowScores x0 x1 x2 p)) (Finset.sum_congr rfl fun k _ => ?_)
  rw [weight_read]

end Body

end Cert.KernelRows

end
-- ==== Proof.KernelValue.lean ====
/-
  The kernel's two result arrays, whole.

  The grid has 16 points; point t works on rows 256 t .. 256 t + 255 of X against the whole candidate table and the
  whole intercept, and writes back rows 256 t .. 256 t + 255 of both outputs. Every row of the outputs is therefore
  written by exactly one point, and holds the row model's soft choice and soft maximum of that row's scores. The
  narrow output is a 4096 x 1 column, which the program then flattens to the 4096 entries of its second result.
-/
import proofs.«145452_g88089779241353_cont_9to1c4b_404_3_alg».proof.Proof.Gen.KernelIdeal.Frame
import proofs.«145452_g88089779241353_cont_9to1c4b_404_3_alg».proof.Proof.KernelRows
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen Cert.RowModel

/-! ## The results as functions of the three argument arrays -/

/-- The scores of row r of X against the candidate table and the intercept. -/
abbrev argScores (a0 : FVec Ideal S4096x256 .f32) (a1 : FVec Ideal S1x8192x256 .f32) (a2 : FVec Ideal S1x8192 .f32)
    (r : Fin 4096) : Fin 8192 → EReal :=
  score (fun d => a0 (ix2 r d)) (fun k d => a1 (ix3 (0 : Fin 1) k d)) (fun k => a2 (ix2 (0 : Fin 1) k))

/-- The soft choice: row r, coordinate j. -/
def choiceArr (a0 : FVec Ideal S4096x256 .f32) (a1 : FVec Ideal S1x8192x256 .f32) (a2 : FVec Ideal S1x8192 .f32) :
    FVec Ideal S4096x256 .f32 :=
  fun i => kerChoice (argScores a0 a1 a2 (i 0)) (fun k d => a1 (ix3 (0 : Fin 1) k d)) (i 1)

/-- The soft maximum as a 4096 x 1 column. -/
def vCol (a0 : FVec Ideal S4096x256 .f32) (a1 : FVec Ideal S1x8192x256 .f32) (a2 : FVec Ideal S1x8192 .f32) :
    FVec Ideal S4096x1 .f32 :=
  fun i => kerV (argScores a0 a1 a2 (i 0))

/-- The soft maximum as a vector of 4096 entries. -/
def vArr (a0 : FVec Ideal S4096x256 .f32) (a1 : FVec Ideal S1x8192x256 .f32) (a2 : FVec Ideal S1x8192 .f32) :
    FVec Ideal S4096 .f32 :=
  fun i => kerV (argScores a0 a1 a2 (i 0))

theorem choiceArr_apply (a0 : FVec Ideal S4096x256 .f32) (a1 : FVec Ideal S1x8192x256 .f32) (a2 : FVec Ideal S1x8192 .f32)
    (r : Fin 4096) (j : Fin 256) :
    choiceArr a0 a1 a2 (ix2 r j) = kerChoice (argScores a0 a1 a2 r) (fun k d => a1 (ix3 (0 : Fin 1) k d)) j := rfl
theorem vCol_apply (a0 : FVec Ideal S4096x256 .f32) (a1 : FVec Ideal S1x8192x256 .f32) (a2 : FVec Ideal S1x8192 .f32)
    (r : Fin 4096) : vCol a0 a1 a2 (ix2 r (0 : Fin 1)) = kerV (argScores a0 a1 a2 r) := rfl
theorem vArr_apply (a0 : FVec Ideal S4096x256 .f32) (a1 : FVec Ideal S1x8192x256 .f32) (a2 : FVec Ideal S1x8192 .f32)
    (r : Fin 4096) : vArr a0 a1 a2 (ix1 r) = kerV (argScores a0 a1 a2 r) := rfl

/-! ## One grid point: from the blocks' rows to the arrays' rows -/

/-- If row p of the X block is row r of X, and the table and intercept blocks are the whole table and intercept,
    the wide block's row p is the soft choice of row r. -/
theorem block_choice (x0 : Vec Ideal S256x256 .f32) (x1 : Vec Ideal S8192x256 .f32) (x2 : Vec Ideal S1x8192 .f32)
    (a0 : FVec Ideal S4096x256 .f32) (a1 : FVec Ideal S1x8192x256 .f32) (a2 : FVec Ideal S1x8192 .f32)
    (r : Fin 4096) (p j : Fin 256)
    (h0 : ∀ d, x0 (ix2 p d) = a0 (ix2 r d)) (h1 : ∀ k d, x1 (ix2 k d) = a1 (ix3 (0 : Fin 1) k d))
    (h2 : ∀ k, x2 (ix2 (0 : Fin 1) k) = a2 (ix2 (0 : Fin 1) k)) :
    Gen.k0_pay6 (F := Ideal) x0 x1 x2 (ix2 p j) = choiceArr a0 a1 a2 (ix2 r j) := by
  rw [Cert.KernelRows.soft_choice_block, choiceArr_apply]
  have e0 : Cert.KernelRows.blockRow x0 p = fun d => a0 (ix2 r d) := funext h0
  have e1 : Cert.KernelRows.table x1 = fun k d => a1 (ix3 (0 : Fin 1) k d) := funext fun k => funext (h1 k)
  have e2 : Cert.KernelRows.intercept x2 = fun k => a2 (ix2 (0 : Fin 1) k) := funext h2
  have es : Cert.KernelRows.rowScores x0 x1 x2 p = argScores a0 a1 a2 r := by
    show score (Cert.KernelRows.blockRow x0 p) (Cert.KernelRows.table x1) (Cert.KernelRows.intercept x2) = _
    rw [e0, e1, e2]
  rw [es, e1]

/-- Likewise the narrow block's row p is the soft maximum of row r. -/
theorem block_v (x0 : Vec Ideal S256x256 .f32) (x1 : Vec Ideal S8192x256 .f32) (x2 : Vec Ideal S1x8192 .f32)
    (a0 : FVec Ideal S4096x256 .f32) (a1 : FVec Ideal S1x8192x256 .f32) (a2 : FVec Ideal S1x8192 .f32)
    (r : Fin 4096) (p : Fin 256)
    (h0 : ∀ d, x0 (ix2 p d) = a0 (ix2 r d)) (h1 : ∀ k d, x1 (ix2 k d) = a1 (ix3 (0 : Fin 1) k d))
    (h2 : ∀ k, x2 (ix2 (0 : Fin 1) k) = a2 (ix2 (0 : Fin 1) k)) :
    Gen.k0_pay5 (F := Ideal) x0 x1 x2 (ix2 p (0 : Fin 1)) = vCol a0 a1 a2 (ix2 r (0 : Fin 1)) := by
  rw [Cert.KernelRows.soft_max_block, vCol_apply]
  have e0 : Cert.KernelRows.blockRow x0 p = fun d => a0 (ix2 r d) := funext h0
  have e1 : Cert.KernelRows.table x1 = fun k d => a1 (ix3 (0 : Fin 1) k d) := funext fun k => funext (h1 k)
  have e2 : Cert.KernelRows.intercept x2 = fun k => a2 (ix2 (0 : Fin 1) k) := funext h2
  have es : Cert.KernelRows.rowScores x0 x1 x2 p = argScores a0 a1 a2 r := by
    show score (Cert.KernelRows.blockRow x0 p) (Cert.KernelRows.table x1) (Cert.KernelRows.intercept x2) = _
    rw [e0, e1, e2]
  rw [es]

/-! ## The arrays as the region finds them, and each window's block at a point -/

section Region

variable (m : (ℓ : Loc nD τ sig) → Buf (Elt Ideal) ℓ) (ρ : Dev nD → PrngReg)

/-- The three argument arrays on core c. -/
abbrev argX (c : Dev nD) : FVec Ideal S4096x256 .f32 := m ((c : Thread nD τ).loc main_arg0)
abbrev argY (c : Dev nD) : FVec Ideal S1x8192x256 .f32 := m ((c : Thread nD τ).loc main_arg1)
abbrev argB (c : Dev nD) : FVec Ideal S1x8192 .f32 := m ((c : Thread nD τ).loc main_arg2)

/-- The candidate table the region is launched on is the second argument with its unit axis dropped. -/
theorem V_table (c : Dev nD) :
    (V m c main_call0_v0 : S8192x256.Idx → EReal) = shapeCast S8192x256 (argY m c) shapeCasts_S1x8192x256_S8192x256 := by
  show StableHlo.after hostOps0 (fun b => m (c, b)) (Proc.devRef .tc main_call0_v0) = _
  after_results
  rfl

/-- The printed index maps over the grid: the X block and both output blocks move with the point along the rows,
    the table and the intercept stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of the X block at point t is row 256 t + p of X. -/
theorem xblock_read (c : Dev nD) (t : Fin cfg0.N) (p d : Fin 256) (r : Fin 4096) (hr : r.val = t.val * 256 + p.val) :
    (iblk m c 0 t : Vec Ideal S256x256 .f32) (ix2 p d) = argX m c (ix2 r d) := by
  obtain ⟨e0, e1, -⟩ := idx_facts t
  unfold iblk
  rw [View.read_apply]
  show V m c main_arg0 _ = _
  rw [V_main_arg0]
  refine congrArg (argX m c) (funext fun a => Fin.ext ?_)
  match a with
  | ⟨0, _⟩ => show win0_0.index t 0 * 256 + 1 * p.val = r.val; rw [e0, hr]; omega
  | ⟨1, _⟩ => show win0_0.index t 1 * 256 + 1 * d.val = d.val; rw [e1]; omega

/-- The table block at every point is the whole candidate table. -/
theorem table_read (c : Dev nD) (t : Fin cfg0.N) (k : Fin 8192) (d : Fin 256) :
    (iblk m c 1 t : Vec Ideal S8192x256 .f32) (ix2 k d) = argY m c (ix3 (0 : Fin 1) k d) := by
  obtain ⟨-, -, e2, e3, -⟩ := idx_facts t
  unfold iblk
  rw [View.read_apply]
  show V m c main_call0_v0 _ = _
  rw [V_table]
  refine Eq.trans (congrArg _ (funext fun a => Fin.ext ?_)) (shapeCast_1ab_ab_apply (argY m c) _ k d)
  match a with
  | ⟨0, _⟩ => show win0_1.index t 0 * 8192 + 1 * k.val = k.val; rw [e2]; omega
  | ⟨1, _⟩ => show win0_1.index t 1 * 256 + 1 * d.val = d.val; rw [e3]; omega

/-- The intercept block at every point is the whole intercept. -/
theorem intercept_read (c : Dev nD) (t : Fin cfg0.N) (k : Fin 8192) :
    (iblk m c 2 t : Vec Ideal S1x8192 .f32) (ix2 (0 : Fin 1) k) = argB m c (ix2 (0 : Fin 1) k) := by
  obtain ⟨-, -, -, -, e4, e5, -⟩ := idx_facts t
  unfold iblk
  rw [View.read_apply]
  show V m c main_arg2 _ = _
  rw [V_main_arg2]
  refine congrArg (argB m c) (funext fun a => Fin.ext ?_)
  match a with
  | ⟨0, _⟩ => show win0_2.index t 0 * 1 + 1 * 0 = 0; rw [e4]
  | ⟨1, _⟩ => show win0_2.index t 1 * 8192 + 1 * k.val = k.val; rw [e5]; omega

theorem hz : (![0, 0] : Fin 2 → Nat) = fun _ => 0 := funext fun a => by fin_cases a <;> rfl

/-- What point t writes back to the wide output is rows 256 t .. 256 t + 255 of the soft choice. -/
theorem flushed_choice (c : Dev nD) (t : Fin cfg0.N) :
    (dats m 0 c).flushed 3 t
      = ((cfg0.win 3).blk t).view.read (Elt Ideal) (choiceArr (argX m c) (argY m c) (argB m c)) := by
  show (cfg0.win 3).cut (grid0.coords t) ((dats m 0 c).after 3 t) = _
  rw [after0_3]
  unfold out0_3
  rw [View.canon_unit_zero hz]
  simp only [View.ld_unit_zero (S := S256x256) hz, View.ld_unit_zero (S := S8192x256) hz, View.ld_unit_zero (S := S1x8192) hz]
  funext y
  obtain ⟨p, j, rfl⟩ : ∃ (p j : Fin 256), y = ix2 p j :=
    ⟨⟨(y 0).val, (y 0).isLt⟩, ⟨(y 1).val, (y 1).isLt⟩, funext fun a => Fin.ext (by
      match a with
      | ⟨0, _⟩ => rfl
      | ⟨1, _⟩ => rfl)⟩
  obtain ⟨-, -, -, -, -, -, e6, e7, -⟩ := idx_facts t
  have hN : cfg0.N = 16 := N_0
  have ht := t.isLt
  have hp := p.isLt
  have hr : t.val * 256 + p.val < 4096 := by omega
  rw [View.read_apply]
  have he : ((cfg0.win 3).blk t).view.emb (ix2 p j) = ix2 (⟨t.val * 256 + p.val, hr⟩ : Fin 4096) j :=
    funext fun a => Fin.ext (by
      match a with
      | ⟨0, _⟩ => show win0_3.index t 0 * 256 + 1 * p.val = t.val * 256 + p.val; rw [e6]; omega
      | ⟨1, _⟩ => show win0_3.index t 1 * 256 + 1 * j.val = j.val; rw [e7]; omega)
  rw [he]
  exact block_choice (iblk m c 0 t) (iblk m c 1 t) (iblk m c 2 t) (argX m c) (argY m c) (argB m c) ⟨_, hr⟩ p j
    (fun d => xblock_read m c t p d _ rfl) (fun k d => table_read m c t k d) (fun k => intercept_read m c t k)

/-- What point t writes back to the narrow output is rows 256 t .. 256 t + 255 of the soft maximum column. -/
theorem flushed_v (c : Dev nD) (t : Fin cfg0.N) :
    (dats m 0 c).flushed 4 t
      = ((cfg0.win 4).blk t).view.read (Elt Ideal) (vCol (argX m c) (argY m c) (argB m c)) := by
  show (cfg0.win 4).cut (grid0.coords t) ((dats m 0 c).after 4 t) = _
  rw [after0_4]
  unfold out0_4
  rw [View.canon_unit_zero hz]
  simp only [View.ld_unit_zero (S := S256x256) hz, View.ld_unit_zero (S := S8192x256) hz, View.ld_unit_zero (S := S1x8192) hz]
  funext y
  obtain ⟨p, rfl⟩ : ∃ p : Fin 256, y = ix2 p (0 : Fin 1) :=
    ⟨⟨(y 0).val, (y 0).isLt⟩, funext fun a => Fin.ext (by
      match a with
      | ⟨0, _⟩ => rfl
      | ⟨1, _⟩ => show (y 1).val = 0; have h1 : (y 1).val < 1 := (y 1).isLt; omega)⟩
  obtain ⟨-, -, -, -, -, -, -, -, e8, e9⟩ := idx_facts t
  have hN : cfg0.N = 16 := N_0
  have ht := t.isLt
  have hp := p.isLt
  have hr : t.val * 256 + p.val < 4096 := by omega
  rw [View.read_apply]
  have he : ((cfg0.win 4).blk t).view.emb (ix2 p (0 : Fin 1)) = ix2 (⟨t.val * 256 + p.val, hr⟩ : Fin 4096) (0 : Fin 1) :=
    funext fun a => Fin.ext (by
      match a with
      | ⟨0, _⟩ => show win0_4.index t 0 * 256 + 1 * p.val = t.val * 256 + p.val; rw [e8]; omega
      | ⟨1, _⟩ => show win0_4.index t 1 * 1 + 1 * 0 = 0; rw [e9])
  rw [he]
  exact block_v (iblk m c 0 t) (iblk m c 1 t) (iblk m c 2 t) (argX m c) (argY m c) (argB m c) ⟨_, hr⟩ p
    (fun d => xblock_read m c t p d _ rfl) (fun k d => table_read m c t k d) (fun k => intercept_read m c t k)

/-- Every index of the wide output lies in the block of the point that owns its row. -/
theorem cover_choice (i : S4096x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  have hN : cfg0.N = 16 := N_0
  have hlt : (i 0).val / 256 < cfg0.N := by rw [hN]; omega
  obtain ⟨-, -, -, -, -, -, e6, e7, -⟩ := idx_facts ⟨(i 0).val / 256, hlt⟩
  have e6' : win0_3.index ⟨(i 0).val / 256, hlt⟩ (0 : Fin 2) = (i 0).val / 256 := e6
  refine ⟨⟨(i 0).val / 256, hlt⟩, flush0_3 _, ?_⟩
  show i ∈ ((View.whole main_v0_0).slice (win0_3.rect ⟨(i 0).val / 256, hlt⟩)).set
  rw [View.set_slice_whole, Rect.mem_set_unit]
  intro a
  match a with
  | ⟨0, _⟩ =>
    show win0_3.index ⟨(i 0).val / 256, hlt⟩ (0 : Fin 2) * 256 ≤ (i 0).val ∧ (i 0).val < win0_3.index ⟨(i 0).val / 256, hlt⟩ (0 : Fin 2) * 256 + 256
    rw [e6']; omega
  | ⟨1, _⟩ =>
    show win0_3.index ⟨(i 0).val / 256, hlt⟩ (1 : Fin 2) * 256 ≤ (i 1).val ∧ (i 1).val < win0_3.index ⟨(i 0).val / 256, hlt⟩ (1 : Fin 2) * 256 + 256
    rw [e7]; omega

/-- Every index of the narrow output lies in the block of the point that owns its row. -/
theorem cover_v (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 16 := N_0
  have hlt : (i 0).val / 256 < cfg0.N := by rw [hN]; omega
  obtain ⟨-, -, -, -, -, -, -, -, e8, e9⟩ := idx_facts ⟨(i 0).val / 256, hlt⟩
  have e8' : win0_4.index ⟨(i 0).val / 256, hlt⟩ (0 : Fin 2) = (i 0).val / 256 := e8
  refine ⟨⟨(i 0).val / 256, hlt⟩, flush0_4 _, ?_⟩
  show i ∈ ((View.whole main_call0_v1_1).slice (win0_4.rect ⟨(i 0).val / 256, hlt⟩)).set
  rw [View.set_slice_whole, Rect.mem_set_unit]
  intro a
  match a with
  | ⟨0, _⟩ =>
    show win0_4.index ⟨(i 0).val / 256, hlt⟩ (0 : Fin 2) * 256 ≤ (i 0).val ∧ (i 0).val < win0_4.index ⟨(i 0).val / 256, hlt⟩ (0 : Fin 2) * 256 + 256
    rw [e8']; omega
  | ⟨1, _⟩ =>
    show win0_4.index ⟨(i 0).val / 256, hlt⟩ (1 : Fin 2) * 1 ≤ (i 1).val ∧ (i 1).val < win0_4.index ⟨(i 0).val / 256, hlt⟩ (1 : Fin 2) * 1 + 1
    rw [e9]; omega

/-- After the run the wide output holds the soft choice of every row, -/
theorem final_choice (c : Dev nD) : (dats m 0 c).arrAt 3 cfg0.N = choiceArr (argX m c) (argY m c) (argB m c) :=
  (dats m 0 c).arrAt_eq_of_cover 3 (choiceArr (argX m c) (argY m c) (argB m c)) (fun t _ => flushed_choice m c t) cover_choice

/-- and the narrow output the soft maximum of every row. -/
theorem final_vcol (c : Dev nD) : (dats m 0 c).arrAt 4 cfg0.N = vCol (argX m c) (argY m c) (argB m c) :=
  (dats m 0 c).arrAt_eq_of_cover 4 (vCol (argX m c) (argY m c) (argB m c)) (fun t _ => flushed_v m c t) cover_v

/-- The program's second result is the narrow output flattened: entry r is the soft maximum of row r. -/
theorem tail_v (c : Dev nD) :
    Pipeline.afterTail₀ cfgs (dats m) 0 (V0 m) [hostOps1] c main_v0_1 = vArr (argX m c) (argY m c) (argB m c) := by
  unfold Pipeline.afterTail₀
  show StableHlo.after hostOps1 _ (Proc.devRef .tc main_v0_1) = _
  after_results
  have hcol : Pipeline.withArrays (cfgs 0).spec c (V0 m c) (fun w => (dats m 0 c).arrAt w (cfgs 0).N) (Proc.devRef .tc main_call0_v1_1)
      = vCol (argX m c) (argY m c) (argB m c) :=
    (Pipeline.withArrays_arr spec0 launch0.win.arr_inj c _ _ 4).trans (final_vcol m c)
  funext i
  obtain ⟨r, rfl⟩ : ∃ r : Fin 4096, i = ix1 r := ⟨i 0, eq_ix1 i⟩
  show shapeCast S4096 (Pipeline.withArrays (cfgs 0).spec c (V0 m c) (fun w => (dats m 0 c).arrAt w (cfgs 0).N) (Proc.devRef .tc main_call0_v1_1)) shapeCasts_S4096x1_S4096 (ix1 r) = _
  rw [hcol, vArr_apply]
  refine (shapeCast_apply _ _ _ (ix2 r (0 : Fin 1)) ?_).trans (vCol_apply _ _ _ r)
  rw [Shape.rowMajor_val_two, Shape.rowMajor_val_one]
  show r.val * 1 + 0 = r.val
  omega

/-- The kernel's run, read: both results at the row model's kernel side of every row, the arguments unchanged. -/
theorem run : θ_run defs (onTc (τ := τ) (main (F := Ideal))) ⟨m, fun _ => 0, ρ⟩ fun r => ∀ c : Dev nD,
      r.2.mem ((c.tc : Thread nD τ).loc main_v0_0) = choiceArr (argX m c) (argY m c) (argB m c)
      ∧ r.2.mem ((c.tc : Thread nD τ).loc main_v0_1) = vArr (argX m c) (argY m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final_choice m c),
      ((h c).2 main_v0_1 (Pipeline.mem_restRefs_of main_v0_1 (by decide) (by decide))).trans (tail_v m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Region

end Cert.KernelValue

end
-- ==== Proof.RefRows.lean ====
/-
  The reference program read at a row.

  The reference computes, for every row r of X and every candidate k,
    score r k = (sum over d of X r d * Y k d) + b k,
  then the row's largest and smallest score, the adaptive temperature (50 over the clamped span, clipped to
  [50, 5000]), the scaled scores z = score * temp, the shift of z by its row maximum, a second shift by the
  maximum of the shifted row taken against minus infinity, the exponentials, their total, the weights
  (each exponential over the total), and the two results: the weighted sum of the scores and the weighted sum
  of the candidates' coordinates.

  Each operation's value at an index is a function of its operands' values at an index; the four maxima and
  minima along a row are folds of max / min over the row's 8192 entries from the infinities, and the two sums
  and the two matrix products are finite sums. Read one stage after another at the row r (and the candidate k),
  every stage is, term for term, the row model's reference side at the row's scores; the last two stages are
  `refV` and `refChoice`.
-/
import proofs.«145452_g88089779241353_cont_9to1c4b_404_3_alg».proof.Proof.Gen.ReferenceIdeal.Read
import proofs.«145452_g88089779241353_cont_9to1c4b_404_3_alg».proof.Proof.RowModel

noncomputable section

namespace Cert.RefRows

open Idealize.ShloMosaic Idealize.ShloMosaic.ValueIdx Cert.ReferenceIdeal Cert.ReferenceIdeal.Read Cert.RowModel

section Stages

variable (x0 : FVec Ideal S4096x256 .f32) (x1 : FVec Ideal S1x8192x256 .f32) (x2 : FVec Ideal S1x8192 .f32)

/-- The scores of row `r`: the row of X against the candidate table, plus the intercept. -/
private abbrev rowScore (r : Fin 4096) : Fin 8192 → EReal :=
  score (fun d => x0 (ix2 r d)) (fun k d => x1 (ix3 (0 : Fin 1) k d)) (fun k => x2 (ix2 (0 : Fin 1) k))

/-! ### The scores -/

/-- The candidate table with its unit axis dropped: entry (k, d) is entry (0, k, d), since the flat position
    k * 256 + d splits back into k and d. -/
private theorem v0_at (k : Fin 8192) (d : Fin 256) :
    val_main_v0 (F := Ideal) x1 (ix2 k d) = x1 (ix3 (0 : Fin 1) k d) := by
  rw [val_main_v0_apply]
  refine congrArg x1 (funext fun a => Fin.ext ?_)
  have hk := k.isLt
  have hd := d.isLt
  match a with
  | ⟨0, _⟩ => rfl
  | ⟨1, _⟩ => show (k.val * 256 + d.val) / 256 % 8192 = k.val; omega
  | ⟨2, _⟩ => show (k.val * 256 + d.val) % 256 = d.val; omega

/-- Its transpose: entry (d, k) is entry (0, k, d). -/
private theorem v1_at (d : Fin 256) (k : Fin 8192) :
    val_main_v1 (F := Ideal) x1 (ix2 d k) = x1 (ix3 (0 : Fin 1) k d) := by
  rw [val_main_v1_apply]
  refine Eq.trans (congrArg (val_main_v0 (F := Ideal) x1) ?_) (v0_at x1 k d)
  exact funext fun a => Fin.ext (by match a with | ⟨0, _⟩ => rfl | ⟨1, _⟩ => rfl)

/-- The product X Yᵀ at (r, k): the sum over d of X r d * Y k d. -/
private theorem v2_at (r : Fin 4096) (k : Fin 8192) :
    val_main_v2 (F := Ideal) x0 x1 (ix2 r k) = ∑ d : Fin 256, x0 (ix2 r d) * x1 (ix3 (0 : Fin 1) k d) := by
  rw [val_main_v2_apply]
  refine Finset.sum_congr rfl fun d _ => ?_
  have e1 : lidx_main_v2 (ix2 r k) d = ix2 r d :=
    funext fun a => Fin.ext (by match a with | ⟨0, _⟩ => rfl | ⟨1, _⟩ => rfl)
  have e2 : ridx_main_v2 (ix2 r k) d = ix2 d k :=
    funext fun a => Fin.ext (by match a with | ⟨0, _⟩ => rfl | ⟨1, _⟩ => rfl)
  rw [e1, e2, v1_at]

/-- The intercept spread over the rows: entry (r, k) is b k. -/
private theorem v3_at (r : Fin 4096) (k : Fin 8192) :
    val_main_v3 (F := Ideal) x2 (ix2 r k) = x2 (ix2 (0 : Fin 1) k) := by
  rw [val_main_v3_apply]
  exact congrArg x2 (funext fun a => Fin.ext (by match a with | ⟨0, _⟩ => rfl | ⟨1, _⟩ => rfl))

/-- The score table at (r, k) is the row model's score of candidate k for row r. -/
private theorem v4_at (r : Fin 4096) (k : Fin 8192) :
    val_main_v4 (F := Ideal) x0 x1 x2 (ix2 r k) = rowScore x0 x1 x2 r k := by
  rw [val_main_v4_apply, v2_at, v3_at]
  rfl

/-! ### Maxima and minima along a row

  max and min on the extended reals commute and associate, so a reduction of a 4096 x 8192 table along its
  second axis is, at row r, the fold over k of the entries (r, k) from the initial value. -/

private theorem reduce_max_at (x : FVec Ideal S4096x8192 .f32) (init : FVec Ideal S_ .f32) (r : Fin 4096) :
    Host.reduce FloatOps.maximumf x init Facts₀.reducesTo_S4096x8192_S4096_d1 Facts₀.h_S_ (ix1 r)
      = (Finset.univ : Finset (Fin 8192)).fold max (init (Shape.Idx.first Facts₀.h_S_)) (fun k => x (ix2 r k)) := by
  have h : S4096x8192.Reduces [1] S4096 := by decide
  rw [Host.reduce_eq_fold_single FloatOps.maximumf x init Facts₀.reducesTo_S4096x8192_S4096_d1 h Facts₀.h_S_ (ix1 r)]
  refine Finset.fold_congr (fun k _ => ?_)
  exact congrArg x (funext fun a => Fin.ext (by match a with | ⟨0, _⟩ => rfl | ⟨1, _⟩ => rfl))

private theorem reduce_min_at (x : FVec Ideal S4096x8192 .f32) (init : FVec Ideal S_ .f32) (r : Fin 4096) :
    Host.reduce FloatOps.minimumf x init Facts₀.reducesTo_S4096x8192_S4096_d1 Facts₀.h_S_ (ix1 r)
      = (Finset.univ : Finset (Fin 8192)).fold min (init (Shape.Idx.first Facts₀.h_S_)) (fun k => x (ix2 r k)) := by
  have h : S4096x8192.Reduces [1] S4096 := by decide
  rw [Host.reduce_eq_fold_single FloatOps.minimumf x init Facts₀.reducesTo_S4096x8192_S4096_d1 h Facts₀.h_S_ (ix1 r)]
  refine Finset.fold_congr (fun k _ => ?_)
  exact congrArg x (funext fun a => Fin.ext (by match a with | ⟨0, _⟩ => rfl | ⟨1, _⟩ => rfl))

/-- The row's largest score: the fold of max from minus infinity. -/
private theorem v5_at (r : Fin 4096) :
    val_main_v5 (F := Ideal) x0 x1 x2 (ix1 r) = rowMax (rowScore x0 x1 x2 r) := by
  unfold val_main_v5
  rw [reduce_max_at, funext fun k => v4_at x0 x1 x2 r k]
  rfl

/-- The row's smallest score: the fold of min from plus infinity. -/
private theorem v7_at (r : Fin 4096) :
    val_main_v7 (F := Ideal) x0 x1 x2 (ix1 r) = rowMin (rowScore x0 x1 x2 r) := by
  unfold val_main_v7
  rw [reduce_min_at, funext fun k => v4_at x0 x1 x2 r k]
  rfl

/-! ### Rows, columns and tables

  A per-row quantity lives first in a vector of 4096 entries, then in a 4096 x 1 column, then spread over the
  4096 x 8192 table: entry (r, k) of the table is entry (r, 0) of the column, which is entry r of the vector. -/

private theorem col_row (r : Fin 4096) :
    (fun a => match a with | ⟨0, _⟩ => ⟨((ix2 r (0 : Fin 1) : S4096x1.Idx) 0).val, ((ix2 r (0 : Fin 1) : S4096x1.Idx) 0).isLt⟩ : S4096.Idx) = ix1 r :=
  funext fun a => Fin.ext (by match a with | ⟨0, _⟩ => rfl)

private theorem tab_col (r : Fin 4096) (k : Fin 8192) :
    (fun a => match a with
      | ⟨0, _⟩ => ⟨((ix2 r k : S4096x8192.Idx) 0).val, ((ix2 r k : S4096x8192.Idx) 0).isLt⟩
      | ⟨1, _⟩ => ⟨0, Nat.one_pos⟩ : S4096x1.Idx) = ix2 r (0 : Fin 1) :=
  funext fun a => Fin.ext (by match a with | ⟨0, _⟩ => rfl | ⟨1, _⟩ => rfl)

/-! ### The temperature and the shifted scores -/

/-- The adaptive temperature of row r: 50 over the span clamped below at 1e-3, clipped to [50, 5000]. -/
private theorem v14_at (r : Fin 4096) :
    val_main_v14 (F := Ideal) x0 x1 x2 (ix2 r (0 : Fin 1)) = temp (rowScore x0 x1 x2 r) := by
  rw [val_main_v14_apply, val_main_call0_v4_apply, val_main_call0_v3_apply, val_main_cst_4_apply,
    val_main_call0_v2_apply, val_main_call0_v1_apply, val_main_call0_v0_apply, val_main_cst_3_apply,
    val_main_v13_apply, val_main_v12_apply, val_main_cst_2_apply, val_main_v11_apply, val_main_v9_apply,
    val_main_v6_apply, val_main_v8_apply, val_main_v10_apply, val_main_cst_1_apply]
  have e6 : idx_main_v6 (ix2 r (0 : Fin 1)) = ix1 r := col_row r
  have e8 : idx_main_v8 (ix2 r (0 : Fin 1)) = ix1 r := col_row r
  rw [e6, e8, v5_at, v7_at]
  rfl

/-- The scaled score z = score * temp. -/
private theorem v16_at (r : Fin 4096) (k : Fin 8192) :
    val_main_v16 (F := Ideal) x0 x1 x2 (ix2 r k) = refZ (rowScore x0 x1 x2 r) k := by
  rw [val_main_v16_apply, val_main_v15_apply, v4_at]
  have e : idx_main_v15 (ix2 r k) = ix2 r (0 : Fin 1) := tab_col r k
  rw [e, v14_at]
  rfl

/-- The row maximum of z. -/
private theorem v17_at (r : Fin 4096) :
    val_main_v17 (F := Ideal) x0 x1 x2 (ix1 r) = rowMax (refZ (rowScore x0 x1 x2 r)) := by
  unfold val_main_v17
  rw [reduce_max_at, funext fun k => v16_at x0 x1 x2 r k]
  rfl

/-- The first shift: z minus its row maximum. -/
private theorem v20_at (r : Fin 4096) (k : Fin 8192) :
    val_main_v20 (F := Ideal) x0 x1 x2 (ix2 r k) = refZ1 (rowScore x0 x1 x2 r) k := by
  rw [val_main_v20_apply, val_main_v19_apply, val_main_v18_apply, v16_at]
  have e : idx_main_v19 (ix2 r k) = ix2 r (0 : Fin 1) := tab_col r k
  have e' : idx_main_v18 (ix2 r (0 : Fin 1)) = ix1 r := col_row r
  rw [e, e', v17_at]
  rfl

/-- The row maximum of the shifted z. -/
private theorem v21_at (r : Fin 4096) :
    val_main_v21 (F := Ideal) x0 x1 x2 (ix1 r) = rowMax (refZ1 (rowScore x0 x1 x2 r)) := by
  unfold val_main_v21
  rw [reduce_max_at, funext fun k => v20_at x0 x1 x2 r k]
  rfl

/-- The second shift: by the maximum, against minus infinity, of the shifted row's maximum. -/
private theorem v26_at (r : Fin 4096) (k : Fin 8192) :
    val_main_v26 (F := Ideal) x0 x1 x2 (ix2 r k) = refZ2 (rowScore x0 x1 x2 r) k := by
  rw [val_main_v26_apply, val_main_v25_apply, val_main_v24_apply, val_main_v23_apply, val_main_v22_apply,
    val_main_cst_7_apply, v20_at]
  have e : idx_main_v25 (ix2 r k) = ix2 r (0 : Fin 1) := tab_col r k
  have e' : idx_main_v24 (ix2 r (0 : Fin 1)) = ix1 r := col_row r
  rw [e, e', v21_at]
  rfl

/-! ### The weights -/

/-- The exponential of the twice-shifted z. -/
private theorem v27_at (r : Fin 4096) (k : Fin 8192) :
    val_main_v27 (F := Ideal) x0 x1 x2 (ix2 r k) = Ideal.exp (refZ2 (rowScore x0 x1 x2 r) k) := by
  rw [val_main_v27_apply, v26_at]
  rfl

/-- The exponentials' total along the row, summed from zero. -/
private theorem v28_at (r : Fin 4096) :
    val_main_v28 (F := Ideal) x0 x1 x2 (ix1 r)
      = zero + ∑ k : Fin 8192, Ideal.exp (refZ2 (rowScore x0 x1 x2 r) k) := by
  rw [val_main_v28_apply]
  refine congrArg₂ (· + ·) rfl (Finset.sum_congr rfl fun k _ => ?_)
  have e : idx_main_v28 (ix1 r) k = ix2 r k :=
    funext fun a => Fin.ext (by match a with | ⟨0, _⟩ => rfl | ⟨1, _⟩ => rfl)
  rw [e, v27_at]

/-- The normalised weight of candidate k: its exponential over the total. -/
private theorem v31_at (r : Fin 4096) (k : Fin 8192) :
    val_main_v31 (F := Ideal) x0 x1 x2 (ix2 r k) = refW (rowScore x0 x1 x2 r) k := by
  rw [val_main_v31_apply, val_main_v30_apply, val_main_v29_apply, v27_at]
  have e : idx_main_v30 (ix2 r k) = ix2 r (0 : Fin 1) := tab_col r k
  have e' : idx_main_v29 (ix2 r (0 : Fin 1)) = ix1 r := col_row r
  rw [e, e', v28_at]
  rfl

end Stages

/-! ### The two results -/

/-- The soft choice at (r, j): the sum over the candidates of the weight times the candidate's coordinate j. -/
theorem ref_choice (x0 : FVec Ideal Cert.ReferenceIdeal.S4096x256 .f32) (x1 : FVec Ideal Cert.ReferenceIdeal.S1x8192x256 .f32) (x2 : FVec Ideal Cert.ReferenceIdeal.S1x8192 .f32) (r : Fin 4096) (j : Fin 256) :
    Cert.ReferenceIdeal.Read.val_main_v34 (F := Ideal) x0 x1 x2 (ix2 r j)
      = refChoice (score (fun d => x0 (ix2 r d)) (fun k d => x1 (ix3 (0 : Fin 1) k d)) (fun k => x2 (ix2 (0 : Fin 1) k))) (fun k d => x1 (ix3 (0 : Fin 1) k d)) j := by
  rw [val_main_v34_apply]
  unfold refChoice
  refine Finset.sum_congr rfl fun k _ => ?_
  have e1 : lidx_main_v34 (ix2 r j) k = ix2 r k :=
    funext fun a => Fin.ext (by match a with | ⟨0, _⟩ => rfl | ⟨1, _⟩ => rfl)
  have e2 : ridx_main_v34 (ix2 r j) k = ix2 k j :=
    funext fun a => Fin.ext (by match a with | ⟨0, _⟩ => rfl | ⟨1, _⟩ => rfl)
  rw [e1, e2, v31_at, v0_at]

/-- The soft maximum at r: zero plus the sum over the candidates of the weight times the score. -/
theorem ref_v (x0 : FVec Ideal Cert.ReferenceIdeal.S4096x256 .f32) (x1 : FVec Ideal Cert.ReferenceIdeal.S1x8192x256 .f32) (x2 : FVec Ideal Cert.ReferenceIdeal.S1x8192 .f32) (r : Fin 4096) :
    Cert.ReferenceIdeal.Read.val_main_v33 (F := Ideal) x0 x1 x2 (ix1 r)
      = refV (score (fun d => x0 (ix2 r d)) (fun k d => x1 (ix3 (0 : Fin 1) k d)) (fun k => x2 (ix2 (0 : Fin 1) k))) := by
  rw [val_main_v33_apply]
  unfold refV
  refine congrArg₂ (· + ·) rfl (Finset.sum_congr rfl fun k _ => ?_)
  have e : idx_main_v33 (ix1 r) k = ix2 r k :=
    funext fun a => Fin.ext (by match a with | ⟨0, _⟩ => rfl | ⟨1, _⟩ => rfl)
  rw [e, val_main_v32_apply, v31_at, v4_at]
  rfl

end Cert.RefRows

end
-- ==== Proof.RowMath.lean ====
/-
  The row mathematics: on real scores the kernel's soft selection (weigh, sum, then divide by the total)
  and the reference's (shift twice, normalise each weight, then sum) are the same extended real.

  The road.  Write the scores as coercions of reals `sr k`.  The temperature is clipped to [50, 5000], so it
  is the coercion of a positive real `τ` whatever the span is.  A fold of `max` from minus infinity over a
  real family is the family's largest entry; multiplying by `τ > 0` keeps the place of the largest entry.
  So the reference's first shift subtracts `sr k0 * τ` (with `k0` a place of the maximum), the shifted
  family has maximum `0`, the second shift subtracts `0`, and both sides weigh candidate `k` by the real
  `exp (sr k * τ - sr k0 * τ)`.  The total `D` of the weights is a positive real, so the two results are
  coercions of the reals `(∑ w k * a k) * (1 / D)` and `∑ (w k * (1 / D)) * a k`, which agree.
-/
import proofs.«145452_g88089779241353_cont_9to1c4b_404_3_alg».proof.Proof.RowModel

noncomputable section

namespace Cert.RowModel

open Idealize.ShloMosaic

/-! ### The float words as extended reals -/

private theorem negInf_eq : negInf = ⊥ := by
  simp [negInf, Ideal.ofBits, Ideal.ieee]

private theorem zero_eq : zero = 0 := by
  simp [zero, Ideal.ofBits, Ideal.ieee]

private theorem one_eq : one = 1 := by
  simp [one, Ideal.ofBits, Ideal.ieee, -EReal.coe_mul]; norm_num

private theorem tMin_eq : tMin = ((50 : ℝ) : EReal) := by
  simp [tMin, Ideal.ofBits, Ideal.ieee, -EReal.coe_mul]; norm_num

private theorem tMax_eq : tMax = ((5000 : ℝ) : EReal) := by
  simp [tMax, Ideal.ofBits, Ideal.ieee, -EReal.coe_mul]; norm_num

/-! ### General facts -/

/-- The coercion of a finite sum of reals is the sum of the coercions. -/
private theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A real family read in the extended reals. -/
private def S (f : Fin 8192 → ℝ) : Fin 8192 → EReal := fun k => (f k : EReal)

private theorem S_apply (f : Fin 8192 → ℝ) (k : Fin 8192) : S f k = (f k : EReal) := rfl

/-- The fold of `max` from minus infinity over a real family is the entry at a place of the maximum. -/
private theorem rowMax_S (f : Fin 8192 → ℝ) (k0 : Fin 8192) (h0 : ∀ k, f k ≤ f k0) :
    rowMax (S f) = (f k0 : EReal) := by
  unfold rowMax
  rw [negInf_eq]
  apply le_antisymm
  · rw [Finset.fold_max_le]
    exact ⟨bot_le, fun k _ => EReal.coe_le_coe_iff.2 (h0 k)⟩
  · rw [Finset.le_fold_max]
    exact Or.inr ⟨k0, Finset.mem_univ _, le_rfl⟩

/-- The temperature is clipped to [50, 5000]: a positive real, whatever the span is. -/
private theorem temp_real (s : Fin 8192 → EReal) : ∃ τ : ℝ, 0 < τ ∧ temp s = (τ : EReal) := by
  have hlo : ((50 : ℝ) : EReal) ≤ temp s := by
    unfold temp
    rw [tMin_eq, tMax_eq]
    exact le_min (EReal.coe_le_coe_iff.2 (by norm_num)) (le_max_left _ _)
  have hhi : temp s ≤ ((5000 : ℝ) : EReal) := by
    unfold temp
    rw [tMax_eq]
    exact min_le_left _ _
  have hne_top : temp s ≠ ⊤ := ne_top_of_le_ne_top (EReal.coe_ne_top _) hhi
  have hne_bot : temp s ≠ ⊥ := ne_bot_of_le_ne_bot (EReal.coe_ne_bot _) hlo
  refine ⟨(temp s).toReal, ?_, (EReal.coe_toReal hne_top hne_bot).symm⟩
  have h50 : ((50 : ℝ) : EReal) ≤ ((temp s).toReal : EReal) := by
    rw [EReal.coe_toReal hne_top hne_bot]; exact hlo
  have := EReal.coe_le_coe_iff.1 h50
  linarith

/-! ### Closed forms, for real scores `sr`, temperature `τ > 0` and a place `k0` of the largest score -/

/-- The common weight of candidate `k`. -/
private def wt (sr : Fin 8192 → ℝ) (τ : ℝ) (k0 k : Fin 8192) : ℝ := Real.exp (sr k * τ - sr k0 * τ)

/-- The weights' total. -/
private def tot (sr : Fin 8192 → ℝ) (τ : ℝ) (k0 : Fin 8192) : ℝ := ∑ k : Fin 8192, wt sr τ k0 k

private theorem tot_pos (sr : Fin 8192 → ℝ) (τ : ℝ) (k0 : Fin 8192) : 0 < tot sr τ k0 :=
  Finset.sum_pos (fun k _ => Real.exp_pos _) ⟨k0, Finset.mem_univ _⟩

section Closed

variable (sr : Fin 8192 → ℝ) (τ : ℝ) (k0 : Fin 8192)
  (hτ : 0 < τ) (ht : temp (S sr) = (τ : EReal)) (h0 : ∀ k, sr k ≤ sr k0)

include ht h0 in
private theorem kerW_S (k : Fin 8192) : kerW (S sr) k = (wt sr τ k0 k : EReal) := by
  unfold kerW
  rw [ht, rowMax_S sr k0 h0, S_apply, ← EReal.coe_mul, ← EReal.coe_mul, ← EReal.coe_sub]
  rfl

include ht h0 in
private theorem kerInv_S : kerInv (S sr) = ((1 / tot sr τ k0 : ℝ) : EReal) := by
  unfold kerInv
  simp only [kerW_S sr τ k0 ht h0]
  rw [← coe_sum, one_eq]
  change Ideal.div 1 ((tot sr τ k0 : ℝ) : EReal) = _
  rw [Ideal.div_coe (tot_pos sr τ k0).ne', one_mul]

include ht in
private theorem refZ_S : refZ (S sr) = S (fun k => sr k * τ) := by
  funext k
  unfold refZ
  rw [ht, S_apply, S_apply, EReal.coe_mul]

include hτ ht h0 in
private theorem refZ1_S : refZ1 (S sr) = S (fun k => sr k * τ - sr k0 * τ) := by
  funext k
  unfold refZ1
  rw [refZ_S sr τ ht,
    rowMax_S (fun k => sr k * τ) k0 (fun k => mul_le_mul_of_nonneg_right (h0 k) hτ.le),
    S_apply, S_apply, EReal.coe_sub]

include hτ ht h0 in
private theorem refZ2_S : refZ2 (S sr) = S (fun k => sr k * τ - sr k0 * τ) := by
  funext k
  unfold refZ2
  rw [refZ1_S sr τ k0 hτ ht h0,
    rowMax_S (fun k => sr k * τ - sr k0 * τ) k0
      (fun k => sub_le_sub_right (mul_le_mul_of_nonneg_right (h0 k) hτ.le) _),
    negInf_eq, sub_self, EReal.coe_zero, max_eq_right bot_le, sub_zero]

include hτ ht h0 in
private theorem exp_refZ2_S (k : Fin 8192) : Ideal.exp (refZ2 (S sr) k) = (wt sr τ k0 k : EReal) := by
  rw [refZ2_S sr τ k0 hτ ht h0, S_apply]
  rfl

include hτ ht h0 in
private theorem refW_S (k : Fin 8192) :
    refW (S sr) k = ((wt sr τ k0 k * (1 / tot sr τ k0) : ℝ) : EReal) := by
  unfold refW
  simp only [exp_refZ2_S sr τ k0 hτ ht h0]
  rw [← coe_sum, zero_eq, zero_add]
  change Ideal.div _ ((tot sr τ k0 : ℝ) : EReal) = _
  rw [Ideal.div_coe (tot_pos sr τ k0).ne', ← EReal.coe_mul]

end Closed

/-! ### The two sides agree -/

/-- Weigh-sum-divide equals normalise-then-sum, against any real family `a`. -/
private theorem ker_sum_eq_ref_sum (sr a : Fin 8192 → ℝ) :
    (∑ k : Fin 8192, kerW (S sr) k * (a k : EReal)) * kerInv (S sr)
      = ∑ k : Fin 8192, refW (S sr) k * (a k : EReal) := by
  obtain ⟨τ, hτ, ht⟩ := temp_real (S sr)
  obtain ⟨k0, -, hk0⟩ := Finset.exists_max_image Finset.univ sr ⟨0, Finset.mem_univ _⟩
  have h0 : ∀ k, sr k ≤ sr k0 := fun k => hk0 k (Finset.mem_univ _)
  simp only [kerW_S sr τ k0 ht h0, kerInv_S sr τ k0 ht h0, refW_S sr τ k0 hτ ht h0,
    ← EReal.coe_mul, ← coe_sum]
  have hreal : (∑ k : Fin 8192, wt sr τ k0 k * a k) * (1 / tot sr τ k0)
      = ∑ k : Fin 8192, wt sr τ k0 k * (1 / tot sr τ k0) * a k := by
    rw [Finset.sum_mul]
    apply Finset.sum_congr rfl
    intro k _
    ring
  rw [hreal]

theorem score_real (xr : Fin 256 → EReal) (y : Fin 8192 → Fin 256 → EReal) (b : Fin 8192 → EReal)
    (hx : ∀ d, ∃ r : ℝ, xr d = (r : EReal)) (hy : ∀ k d, ∃ r : ℝ, y k d = (r : EReal)) (hb : ∀ k, ∃ r : ℝ, b k = (r : EReal)) (k : Fin 8192) :
    ∃ r : ℝ, score xr y b k = (r : EReal) := by
  choose xv hxv using hx
  choose yv hyv using hy
  choose bv hbv using hb
  refine ⟨(∑ d : Fin 256, xv d * yv k d) + bv k, ?_⟩
  unfold score
  simp only [hxv, hyv, hbv, ← EReal.coe_mul]
  rw [← coe_sum, ← EReal.coe_add]

theorem kerV_eq_refV (s : Fin 8192 → EReal) (hs : ∀ k, ∃ r : ℝ, s k = (r : EReal)) : kerV s = refV s := by
  choose sr hsr using hs
  obtain rfl : s = S sr := funext hsr
  unfold kerV refV
  rw [zero_eq, zero_add]
  exact ker_sum_eq_ref_sum sr sr

theorem kerChoice_eq_refChoice (s : Fin 8192 → EReal) (y : Fin 8192 → Fin 256 → EReal)
    (hs : ∀ k, ∃ r : ℝ, s k = (r : EReal)) (hy : ∀ k d, ∃ r : ℝ, y k d = (r : EReal)) (j : Fin 256) : kerChoice s y j = refChoice s y j := by
  choose sr hsr using hs
  choose yv hyv using hy
  obtain rfl : s = S sr := funext hsr
  unfold kerChoice refChoice
  simp only [hyv]
  exact ker_sum_eq_ref_sum sr (fun k => yv k j)

end Cert.RowModel

end
-- ==== Proof.Finite.lean ====
import proofs.«145452_g88089779241353_cont_9to1c4b_404_3_alg».proof.Pre_finite_inputs
import Idealize.ShloMosaic.Lib.ReduceAll
import Idealize.ShloMosaic.PureOps.Ideal.Laws

/-!
# From "every float input is finite" to "every entry is a real"

The precondition compares the absolute value of every entry of each of the three inputs with +∞, and
takes the conjunction of all these comparisons. At the extended reals an entry `x` has absolute value
`max x (-x)`, and `max x (-x) < ⊤` holds exactly when `x` is neither `⊥` nor `⊤`, that is, when `x` is
the coercion of a real number.
-/

open Idealize.ShloMosaic

namespace Cert.Finite

/-- The result shape of a reduction over all axes has exactly one index. -/
private instance subsingleton_scalar_idx : Subsingleton Cert.Pre_finite_inputs.S_.Idx :=
  ⟨fun a b => funext fun d => d.elim0⟩

/-- The single-precision word `0x7F800000` denotes `+∞`. -/
private theorem inf_word : Ideal.ofBits .f32 0x7F800000#32 = (⊤ : EReal) := by
  simp [Ideal.ofBits, Ideal.ieee]

/-- An extended real whose absolute value `max x (-x)` lies below `⊤` is a real number. -/
private theorem real_of_abs_lt_top (x : EReal) (h : max x (-x) < ⊤) : ∃ r : ℝ, x = (r : EReal) := by
  induction x using EReal.rec with
  | bot => simp at h
  | top => simp at h
  | coe r => exact ⟨r, rfl⟩

/-- One comparison bit: if `|x| < +∞` evaluates to the bit 1 then `x` is a real number. -/
private theorem real_of_cmp_bit (x : Ideal .f32)
    (h : FloatOps.cmpf .olt (FloatOps.hostAbsf x) (FloatOps.ofBits (F := Ideal) .f32 0x7F800000#32) = 1#1) :
    ∃ r : ℝ, x = (r : EReal) := by
  apply real_of_abs_lt_top
  change Ideal.cmp .olt (max (x : EReal) (-(x : EReal))) (Ideal.ofBits .f32 0x7F800000#32) = 1#1 at h
  rw [inf_word] at h
  unfold Ideal.cmp at h
  by_contra hn
  simp [hn] at h

/-- One input: if the conjunction over all indices of the bits `|x i| < +∞` is 1, every entry is a real. -/
private theorem reals_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu j = 1#1) :
    ∀ i, ∃ r : ℝ, x i = (r : EReal) := by
  intro i
  have hi := Host.reduce_andi_all _ _ hr hu j e i
  exact real_of_cmp_bit (x i) hi

theorem reals_of_pre [Cert.Pre_finite_inputs.Facts]
    (a0 : FVec Ideal Cert.Pre_finite_inputs.S4096x256 .f32) (a1 : FVec Ideal Cert.Pre_finite_inputs.S1x8192x256 .f32) (a2 : FVec Ideal Cert.Pre_finite_inputs.S1x8192 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h (fun a => a.elim0)
  dsimp only [Cert.Pre_finite_inputs.fn] at h0
  obtain ⟨h01, h2⟩ := IntOp.andi_eq_one.1 h0
  obtain ⟨h0', h1⟩ := IntOp.andi_eq_one.1 h01
  exact ⟨reals_of_all a0 _ _ _ _ h0', reals_of_all a1 _ _ _ _ h1, reals_of_all a2 _ _ _ _ h2⟩

end Cert.Finite
-- ==== Proof.lean ====
/-
  The kernel and its reference compute the same soft selection over the extended reals.

  For every row x of X both programs form the 8192 scores  s k = <x, y k> + b k  against the candidate table, the
  row's span (largest minus smallest score, at least 1e-3), the adaptive temperature T = clip(50 / span, 50, 5000),
  and softmax weights of  s * T.  The kernel weighs by  exp (s k * T - max s * T)  and divides the weighted sums
  (of the scores, for the soft maximum; of the candidates, for the soft choice) by the weights' total at the end;
  the reference subtracts the row maximum of  s * T,  lets the softmax subtract the maximum once more (now zero),
  normalises every weight by the total and then sums. On finite inputs every score is a real number, T is a
  positive real, and the two orders of operations agree (the row model's two theorems).

  The kernel's side: each of the 16 grid points owns 256 rows of both outputs; its block rows are the row model's
  kernel side of those rows, the blocks tile the outputs, and the narrow output is flattened to the second result.
  The reference's side: its two results read at a row are the row model's reference side of that row.
  Finiteness of the three inputs is what the precondition says.
-/
import proofs.«145452_g88089779241353_cont_9to1c4b_404_3_alg».proof.Defs
import proofs.«145452_g88089779241353_cont_9to1c4b_404_3_alg».proof.Proof.Gen.Kernel
import proofs.«145452_g88089779241353_cont_9to1c4b_404_3_alg».proof.Proof.Gen.Kernel.Skeleton
import proofs.«145452_g88089779241353_cont_9to1c4b_404_3_alg».proof.Proof.Gen.Kernel.Launch
import proofs.«145452_g88089779241353_cont_9to1c4b_404_3_alg».proof.Proof.Gen.Kernel.Points
import proofs.«145452_g88089779241353_cont_9to1c4b_404_3_alg».proof.Proof.Gen.Kernel.Frame
import proofs.«145452_g88089779241353_cont_9to1c4b_404_3_alg».proof.Proof.Gen.KernelIdeal
import proofs.«145452_g88089779241353_cont_9to1c4b_404_3_alg».proof.Proof.Gen.KernelIdeal.Skeleton
import proofs.«145452_g88089779241353_cont_9to1c4b_404_3_alg».proof.Proof.Gen.KernelIdeal.Launch
import proofs.«145452_g88089779241353_cont_9to1c4b_404_3_alg».proof.Proof.Gen.KernelIdeal.Points
import proofs.«145452_g88089779241353_cont_9to1c4b_404_3_alg».proof.Proof.Gen.KernelIdeal.Frame
import proofs.«145452_g88089779241353_cont_9to1c4b_404_3_alg».proof.Proof.Gen.ReferenceIdeal
import proofs.«145452_g88089779241353_cont_9to1c4b_404_3_alg».proof.Proof.Gen.Pre_finite_inputs
import proofs.«145452_g88089779241353_cont_9to1c4b_404_3_alg».proof.Proof.Gen.ReferenceIdeal.Run
import proofs.«145452_g88089779241353_cont_9to1c4b_404_3_alg».proof.Proof.Gen.ReferenceIdeal.Read
import proofs.«145452_g88089779241353_cont_9to1c4b_404_3_alg».proof.Proof.KernelValue
import proofs.«145452_g88089779241353_cont_9to1c4b_404_3_alg».proof.Proof.RefRows
import proofs.«145452_g88089779241353_cont_9to1c4b_404_3_alg».proof.Proof.RowMath
import proofs.«145452_g88089779241353_cont_9to1c4b_404_3_alg».proof.Proof.Finite
import Idealize.ShloMosaic.Adequacy
import Idealize.ShloMosaic.Init

noncomputable section

namespace Cert.Proof

open Idealize.ShloMosaic Idealize.SL.Sem Idealize.ShloMosaic.ValueIdx

/-! ## The two results agree, array by array -/

section Agree

variable (a0 : FVec Ideal Cert.KernelIdeal.S4096x256 .f32) (a1 : FVec Ideal Cert.KernelIdeal.S1x8192x256 .f32)
  (a2 : FVec Ideal Cert.KernelIdeal.S1x8192 .f32)
  (hx : ∀ i, ∃ r : ℝ, a0 i = (r : EReal)) (hy : ∀ i, ∃ r : ℝ, a1 i = (r : EReal)) (hb : ∀ i, ∃ r : ℝ, a2 i = (r : EReal))

include hx hy hb

/-- On real inputs the reference's first result is the kernel's soft choice, entry by entry. -/
theorem choice_agree :
    Cert.ReferenceIdeal.Read.val_main_v34 (F := Ideal) a0 a1 a2 = Cert.KernelValue.choiceArr a0 a1 a2 := by
  funext i
  obtain ⟨r, j, rfl⟩ : ∃ (r : Fin 4096) (j : Fin 256), i = ix2 r j := ⟨i 0, i 1, eq_ix2 i⟩
  rw [Cert.RefRows.ref_choice, Cert.KernelValue.choiceArr_apply]
  exact (Cert.RowModel.kerChoice_eq_refChoice _ _
    (Cert.RowModel.score_real _ _ _ (fun d => hx _) (fun k d => hy _) (fun k => hb _)) (fun k d => hy _) j).symm

/-- On real inputs the reference's second result is the kernel's soft maximum, entry by entry. -/
theorem v_agree :
    Cert.ReferenceIdeal.Read.val_main_v33 (F := Ideal) a0 a1 a2 = Cert.KernelValue.vArr a0 a1 a2 := by
  funext i
  obtain ⟨r, rfl⟩ : ∃ r : Fin 4096, i = ix1 r := ⟨i 0, eq_ix1 i⟩
  rw [Cert.RefRows.ref_v, Cert.KernelValue.vArr_apply]
  exact (Cert.RowModel.kerV_eq_refV _
    (Cert.RowModel.score_real _ _ _ (fun d => hx _) (fun k d => hy _) (fun k => hb _))).symm

end Agree

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference's run with its results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the soft choice and the soft maximum of every row, computed in two orders that agree on
    finite inputs. -/
theorem algebraic : Cert.algebraic_KernelIdeal_ReferenceIdeal := by
  intro m ρ m' ρ' hpre hagree
  refine ⟨fun c => Cert.KernelValue.choiceArr (Cert.KernelValue.argX m c) (Cert.KernelValue.argY m c) (Cert.KernelValue.argB m c),
    fun c => Cert.KernelValue.vArr (Cert.KernelValue.argX m c) (Cert.KernelValue.argY m c) (Cert.KernelValue.argB m c),
    Cert.KernelValue.run m ρ, ?_⟩
  refine (θ_run Cert.ReferenceIdeal.defs _ _).mono (fun _ h c => ?_) (Cert.ReferenceIdeal.Value.run (F := Ideal) m' ρ')
  obtain ⟨h34, h33, hargs⟩ := h c
  obtain ⟨hx, hy, hb⟩ := Cert.Finite.reals_of_pre _ _ _ (hpre c)
  refine ⟨h34.trans ?_, h33.trans ?_, hargs⟩
  · rw [Cert.ReferenceIdeal.Read.val_main_v34_eq, (hagree c).1, (hagree c).2.1, (hagree c).2.2]
    exact choice_agree _ _ _ hx hy hb
  · rw [Cert.ReferenceIdeal.Read.val_main_v33_eq, (hagree c).1, (hagree c).2.1, (hagree c).2.2]
    exact v_agree _ _ _ hx hy hb

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
